-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S200x10000 : Shape := ⟨2, ![200, 10000]⟩
abbrev S400x128 : Shape := ⟨2, ![400, 128]⟩
abbrev S10000x32 : Shape := ⟨2, ![10000, 32]⟩
abbrev S200x32 : Shape := ⟨2, ![200, 32]⟩
abbrev S200x128 : Shape := ⟨2, ![200, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x128, .f32⟩
  | .hbm, ⟨4, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S32x128, .f32⟩
  | .local _ .vmem, ⟨7, _⟩ => ⟨S400x128, .f32⟩
  | .local _ .vmem, ⟨8, _⟩ => ⟨S400x128, .f32⟩
  | .local _ .vmem, ⟨9, _⟩ => ⟨S10000x32, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S32x128_S32x128_0_0 : ∀ a, (![0, 0] : Fin 2 → Nat) a + S32x128.size a ≤ S32x128.size a
  h_S32x128 : 0 < S32x128.numel
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x32_S10000x32_1_0_0_1_n_n_wf : DotDims.WF S10000x128 S128x32 S10000x32 [1] [0] [0] [1] [] []
  dot_S200x10000_S10000x32_S200x32_1_0_0_1_n_n_wf : DotDims.WF S200x10000 S10000x32 S200x32 [1] [0] [0] [1] [] []
  dot_S200x32_S32x128_S200x128_1_0_0_1_n_n_wf : DotDims.WF S200x32 S32x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S32x128_S200x128_1_0_0_1_n_n : DotDims S200x32 S32x128 S200x128 where
  lhsContracting := [1]
  rhsContracting := [0]
  lhsNonContracting := [0]
  rhsNonContracting := [1]
  lhsBatch := []
  rhsBatch := []
  wf := dot_S200x32_S32x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S10000x32 : Shape := ⟨2, ![10000, 32]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x128, .f32⟩
  | .hbm, ⟨4, _⟩ => ⟨S10000x32, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S10000x128_S128x32_S10000x32_1_0_0_1_n_n_wf : DotDims.WF S10000x128 S128x32 S10000x32 [1] [0] [0] [1] [] []
  dot_S10000x32_S32x128_S10000x128_1_0_0_1_n_n_wf : DotDims.WF S10000x32 S32x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Setup.lean ====
/-
  What the two runs of the layer's kernel body and its frame share.

  The grid has 25 points. At each point the body is handed, in VMEM, the whole feature matrix `x`, `W₁`, two
  consecutive 200-row blocks of the adjacency (rows `400 t … 400 t + 199` and `400 t + 200 … 400 t + 399`: the
  two windows read ONE array), `W₂`, and the 400-row block of the result; it also names a scratch buffer
  of hidden features that lives across the points. The body branches once, on "is this the first point":
  there it computes the hidden features `x · W₁` into the scratch; at every point it then reads the scratch.
  This module names the branch condition and decides it over the grid, names the memrefs the body is called on,
  and reads each window's block off its array.
-/
import proofs.«106846_g61306363183711_cont_9to1_m_1256_15_alg».proof.Proof.Gen.Kernel.Launch
import proofs.«106846_g61306363183711_cont_9to1_m_1256_15_alg».proof.Proof.Gen.Kernel.Skeleton
import proofs.«106846_g61306363183711_cont_9to1_m_1256_15_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: @main has no operation before the region, so these are
    the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch -/

/-- The body's one branch condition, from the grid coordinate: "this is point 0". -/
abbrev atFirst (i : grid0.Coords) : Prop :=
  (Scalar.cmpi .ne (Scalar.extui (Scalar.cmpi .eq (BitVec.ofNat 32 (i 0).val) 0#32)) 0#32) = 1#1

/-- It holds exactly at the first of the 25 points. -/
theorem atFirst_iff : ∀ t : Fin cfg0.N, atFirst (grid0.coords t) ↔ t.val = 0 :=
  (by decide +kernel : ∀ t : Fin grid0.N, atFirst (grid0.coords t) ↔ t.val = 0)

/-! ## The memrefs the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch of hidden features: a whole scoped buffer of the kernel's own. -/
abbrev scM : Memref sig .tc .vmem S10000x32 .bf16 := Memref.whole cc0_scratch0

/-- One staging buffer of the result window and the scratch, as views: contents are stated through them (which view
    is chosen does not matter where the stores cover). -/
abbrev VO : View sig .tc .vmem S400x128 .f32 := (Memref.whole cc0_stg5_0 : Memref sig .tc .vmem S400x128 .f32).view
abbrev VS : View sig .tc .vmem S10000x32 .bf16 := scM.view

end Cert.Kernel.Hand

end
-- ==== Proof.Kernel.RunFirst.lean ====
/-
  The body's run at the FIRST grid point: the branch is taken, so the body loads `x` and `W₁`, stores the hidden
  features `x · W₁` (rounded to bf16) over the whole scratch, and then, as at every point, loads `W₂`, each of the two
  adjacency blocks and the scratch, and stores the two 200-row halves of the result block.
  The run is symbolic: the inputs' buffers come back as they were; the result's staging buffer and the scratch end
  holding their stores, recorded as lists of (rectangle, payload) pieces which the run itself finds.
-/
import proofs.«106846_g61306363183711_cont_9to1_m_1256_15_alg».proof.Proof.Kernel.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the result's staging buffer and in the scratch, WITH the proof that on
    whole memrefs — the five inputs' at their contents, the result's and the scratch at anything — the body runs to a
    continuation holding the inputs' as they were and those two with their pieces written. -/
noncomputable def runFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) :
    Σ' (LO : List (View.Piece (Elt F) S400x128 .f32)), { LS : List (View.Piece (Elt F) S10000x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.Kernel.Hand

end
-- ==== Proof.Kernel.RunLater.lean ====
/-
  The body's run at every LATER grid point: the branch is not taken, so the scratch is only read. The body loads
  `W₂`, the two adjacency blocks and the scratch — which holds what the first point stored, whatever that is — and
  stores the two 200-row halves of the result block. The inputs' buffers and the scratch come back as they were; the
  result's staging buffer ends holding its two stores, recorded as pieces the run finds.
-/
import proofs.«106846_g61306363183711_cont_9to1_m_1256_15_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the result's staging buffer, WITH the proof that on whole memrefs — the
    five inputs' and the scratch at their contents, the result's at anything — the body runs to a continuation holding
    those six as they were and the result's with its pieces written. -/
noncomputable def runLater (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) :
    { LO : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact H6

end Cert.Kernel.Hand

end
-- ==== Proof.Kernel.Body.lean ====
/-
  The frame of the layer's kernel program, and what its run leaves in the result array.

  Between grid points the kernel carries one thing: the scratch of hidden features `x · W₁`, stored whole at the
  first point and only read afterwards. So the invariant between points is: before point 0 the scratch holds
  anything; before every later point it holds what point 0 stored. At each point the five input windows hold their
  blocks of the argument arrays — the two adjacency windows read ONE array, each holding half of its share — and
  the body leaves in the result's staging buffer its two 200-row stores, which tile the 400-row block.
  The launch is the library's for a one-region program whose input windows may share an array: the certificate
  says how the full share of each argument array is dealt among the windows on it (`hsplit`).
-/
import proofs.«106846_g61306363183711_cont_9to1_m_1256_15_alg».proof.Proof.Kernel.RunLater
import Idealize.ShloMosaic.Lib.Pipeline.Launch
import Idealize.ShloMosaic.Lib.Pipeline.Kit
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover, and what they leave -/

/-- The first point's store into the scratch covers it (one whole-buffer piece). -/
theorem coverS_first (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) (y : S10000x32.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x32.size (by sl_kernel_rfl) y

/-- The first point's two stores into the result's staging buffer tile it (two pieces of 200 rows). -/
theorem coverO_first (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- So do a later point's. -/
theorem coverO_later (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-- What the first point leaves in the scratch: its pieces read back. -/
def hidFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) : Vec F S10000x32 .bf16 :=
  VS.read (Elt F) (VS.writes (Elt F) VS.junk (runFirst c i arg1 harg1 arg2 harg2 arg3 harg3 arg4 harg4 arg5 harg5 arg6 harg6 arg7 harg7 hc x0 x1 x2 x3 x4).2.1)

/-- What the first point leaves in the result's staging buffer. -/
def outFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) : Vec F S400x128 .f32 :=
  VO.read (Elt F) (VO.writes (Elt F) VO.junk (runFirst c i arg1 harg1 arg2 harg2 arg3 harg3 arg4 harg4 arg5 harg5 arg6 harg6 arg7 harg7 hc x0 x1 x2 x3 x4).1)

/-- What a later point leaves there, the scratch holding `xs`. -/
def outLater (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) : Vec F S400x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
def t₀ : Fin cfg0.N := ⟨0, by rw [show cfg0.N = 25 from N_0]; decide⟩

theorem atFirst_t₀ : atFirst (grid0.coords t₀) := (atFirst_iff t₀).mpr rfl

/-- The hidden features the scratch holds from the first point on. -/
def hidden (c : Dev nD) : Vec F S10000x32 .bf16 :=
  hidFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) atFirst_t₀ (iblk m c 0 t₀) (iblk m c 1 t₀) (iblk m c 2 t₀) (iblk m c 3 t₀) (iblk m c 4 t₀)

/-- What the result's staging buffer holds after the body at point `t`. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((atFirst_iff t).mp hc)) (iblk m c 0 t) (iblk m c 1 t) (iblk m c 2 t) (iblk m c 3 t) (iblk m c 4 t) (hidden m c)

/-- The invariant before position `n`: the scratch at anything before the first point, at the hidden features after. -/
def PhiS (c : Dev nD) : (n : ℕ) → n ≤ cfg0.N → sProp 𝕄
  | 0, _ => iprop(∃ d, owns (c : Thread nD τ) scM fullShare d)
  | _ + 1, _ => owns (c : Thread nD τ) scM fullShare (hidden m c)

theorem PhiS_zero (c : Dev nD) (n : ℕ) (h : n ≤ cfg0.N) (hz : n = 0) :
    PhiS m c n h = iprop(∃ d, owns (c : Thread nD τ) scM fullShare d) := by subst hz; rfl

theorem PhiS_pos (c : Dev nD) (n : ℕ) (h : n ≤ cfg0.N) (hz : n ≠ 0) :
    PhiS m c n h = owns (c : Thread nD τ) scM fullShare (hidden m c) := by
  cases n with
  | zero => exact absurd rfl hz
  | succ n => rfl

/-! ## The pipeline's proof data -/

/-- The proof data of the one pipeline on core `c`: the arrays as the region finds them; after the body at point `t`
    each input's buffer at its block and the result's at `outAt`; the invariant `PhiS`; nothing owed; the two
    adjacency windows each hold HALF of their array's share, every other input the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- An input window's current staging buffer holds its block at every point, fetched there or not: where it is not
    fetched its block index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4800000 in
/-- The body at any point. The inputs' memrefs hold their blocks; at the first point the scratch holds anything and
    the first run applies, leaving the hidden features in it; at a later point it holds them and the later run
    applies, leaving them in place. Either way the result's buffer ends at `outAt`, its two stores tiling it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  by_cases hz : t.val = 0
  · rw [PhiS_zero m c _ _ hz]
    have ht : t = t₀ := Fin.ext hz
    subst ht
    rw [show outAt m c t₀ = outFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((atFirst_iff t₀).mpr rfl) (iblk m c 0 t₀) (iblk m c 1 t₀) (iblk m c 2 t₀) (iblk m c 3 t₀) (iblk m c 4 t₀) from dif_pos rfl]
    unfold outFirst hidden hidFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) atFirst_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverS_first c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverO_first c _ _ _ _ _ _ _ _ _ _ _ _ _ _ _ _ _ _ _ _ _)
  · rw [PhiS_pos m c _ _ hz]
    rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hc => hz ((atFirst_iff t).mp hc)) (iblk m c 0 t) (iblk m c 1 t) (iblk m c 2 t) (iblk m c 3 t) (iblk m c 4 t) (hidden m c) from dif_neg hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hc => hz ((atFirst_iff t).mp hc)) (iblk m c 0 t) (iblk m c 1 t) (iblk m c 2 t) (iblk m c 3 t) (iblk m c 4 t) (hidden m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverO_later c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Frame.lean ====
/-
  The launch of the layer's kernel program and its frame.

  @main is the kernel region alone. The launch deals each core its argument arrays whole; the region's pipeline
  holds one share per window. Four of the six windows sit on arrays of their own and take the whole share; the two
  adjacency windows sit on ONE array, whose full share is cut in its two halves, one for each (both only read it).
  The scratch of hidden features is the one scoped buffer that is no staging buffer: it enters the invariant at
  anything and leaves it forgotten. The run ends with every window's array at what the library computes from the
  proof data: an input's at its launch contents, the result's at its launch contents overwritten block by block.
-/
import proofs.«106846_g61306363183711_cont_9to1_m_1256_15_alg».proof.Proof.Kernel.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the arrays' shares are dealt -/

/-- A window's array, a whole buffer, held through its view is the buffer held. -/
theorem arr_pts (c : Dev nD) (w : Fin 6) (q : PosShare TreeShare) (f : Buf (Elt F) ((c : Thread nD τ).loc (Pipeline.arrRef spec0 w))) :
    (((spec0 w).arr.view.loc (c : Thread nD τ)) ↦[(spec0 w).arr.view.set]{q} f : sProp 𝕄)
      = (((c : Thread nD τ).loc (Pipeline.arrRef spec0 w)) ↦{q} f) := by
  rw [(arr_whole0 w).set_eq_univ]

/-- The six windows sit on five distinct buffers: a conjunction over those buffers, one by one. -/
theorem bigSep_arrRefs (Φ : Ref sig .tc → sProp 𝕄) :
    bigSep (Finset.univ.image (Pipeline.arrRef spec0)) Φ
      = iprop(Φ main_arg0 ∗ Φ main_arg2 ∗ Φ main_arg1 ∗ Φ main_arg3 ∗ Φ main_v0) :=
  bigSep_eq_bigSepL_of_eq [main_arg0, main_arg2, main_arg1, main_arg3, main_v0] (by decide) (by decide) Φ

/-- The five distinct buffers behind the six windows' arrays, each whole at the full share, make the pipeline's
    arrays at entry: the adjacency's full share is its left half for the first adjacency window and its right half for
    the second. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrRefs]
  iintro ⟨H0, H2, H1, H3, H5⟩
  ihave H1 := (pointsTo_share (PosShare.mem_left_op_right fullShare)).1 $$ H1
  icases H1 with ⟨H1l, H1r⟩
  isplitl [H0]; · iapply (Entails.of_eq (arr_pts c 0 _ _).symm); iexact H0
  isplitl [H2]; · iapply (Entails.of_eq (arr_pts c 1 _ _).symm); iexact H2
  isplitl [H1l]; · iapply (Entails.of_eq (arr_pts c 2 _ _).symm); iexact H1l
  isplitl [H1r]; · iapply (Entails.of_eq (arr_pts c 3 _ _).symm); iexact H1r
  isplitl [H3]; · iapply (Entails.of_eq (arr_pts c 4 _ _).symm); iexact H3
  iapply (Entails.of_eq (arr_pts c 5 _ _).symm); iexact H5

/-! ## The scratch enters and leaves the invariant -/

theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_eq]
  simp only [scM, owns_whole]
  iintro H; isplitr; · iempintro
  iexists _; iexact H

/-! ## The run -/

/-- At the compiled mesh, for any float values, from any memory with zero counters: every weakly fair execution of
    @main on the TensorCores terminates, and every final state has each window's array at what the library computes
    from the proof data. -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- THE FRAME: the program runs to the end, faults nowhere, and its four argument arrays end as they began — each is
    the array of input windows only, which the pipeline never writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1)),
     (h c 4).trans (((dats m 0 c).arrAt_in 4 rfl _).trans (A_eq m c 4))⟩) (run_main m ρ)

end Cert.Kernel.Hand

end
-- ==== Proof.KernelIdeal.Setup.lean ====
/-
  What the two runs of the layer's kernel body and its frame share.

  The grid has 25 points. At each point the body is handed, in VMEM, the whole feature matrix `x`, `W₁`, two
  consecutive 200-row blocks of the adjacency (rows `400 t … 400 t + 199` and `400 t + 200 … 400 t + 399`: the
  two windows read ONE array), `W₂`, and the 400-row block of the result; it also names a scratch buffer
  of hidden features that lives across the points. The body branches once, on "is this the first point":
  there it computes the hidden features `x · W₁` into the scratch; at every point it then reads the scratch.
  This module names the branch condition and decides it over the grid, names the memrefs the body is called on,
  and reads each window's block off its array.
-/
import proofs.«106846_g61306363183711_cont_9to1_m_1256_15_alg».proof.Proof.Gen.KernelIdeal.Launch
import proofs.«106846_g61306363183711_cont_9to1_m_1256_15_alg».proof.Proof.Gen.KernelIdeal.Skeleton
import proofs.«106846_g61306363183711_cont_9to1_m_1256_15_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- Core `c`'s buffer contents when the region is entered: @main has no operation before the region, so these are
    the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch -/

/-- The body's one branch condition, from the grid coordinate: "this is point 0". -/
abbrev atFirst (i : grid0.Coords) : Prop :=
  (Scalar.cmpi .ne (Scalar.extui (Scalar.cmpi .eq (BitVec.ofNat 32 (i 0).val) 0#32)) 0#32) = 1#1

/-- It holds exactly at the first of the 25 points. -/
theorem atFirst_iff : ∀ t : Fin cfg0.N, atFirst (grid0.coords t) ↔ t.val = 0 :=
  (by decide +kernel : ∀ t : Fin grid0.N, atFirst (grid0.coords t) ↔ t.val = 0)

/-! ## The memrefs the body is called on -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch of hidden features: a whole scoped buffer of the kernel's own. -/
abbrev scM : Memref sig .tc .vmem S10000x32 .bf16 := Memref.whole cc0_scratch0

/-- One staging buffer of the result window and the scratch, as views: contents are stated through them (which view
    is chosen does not matter where the stores cover). -/
abbrev VO : View sig .tc .vmem S400x128 .f32 := (Memref.whole cc0_stg5_0 : Memref sig .tc .vmem S400x128 .f32).view
abbrev VS : View sig .tc .vmem S10000x32 .bf16 := scM.view

end Cert.KernelIdeal.Hand

end
-- ==== Proof.KernelIdeal.RunFirst.lean ====
/-
  The body's run at the FIRST grid point: the branch is taken, so the body loads `x` and `W₁`, stores the hidden
  features `x · W₁` (rounded to bf16) over the whole scratch, and then, as at every point, loads `W₂`, each of the two
  adjacency blocks and the scratch, and stores the two 200-row halves of the result block.
  The run is symbolic: the inputs' buffers come back as they were; the result's staging buffer and the scratch end
  holding their stores, recorded as lists of (rectangle, payload) pieces which the run itself finds.
-/
import proofs.«106846_g61306363183711_cont_9to1_m_1256_15_alg».proof.Proof.KernelIdeal.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first point's stores leave in the result's staging buffer and in the scratch, WITH the proof that on
    whole memrefs — the five inputs' at their contents, the result's and the scratch at anything — the body runs to a
    continuation holding the inputs' as they were and those two with their pieces written. -/
noncomputable def runFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) :
    Σ' (LO : List (View.Piece (Elt F) S400x128 .f32)), { LS : List (View.Piece (Elt F) S10000x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; iexact H6

end Cert.KernelIdeal.Hand

end
-- ==== Proof.KernelIdeal.RunLater.lean ====
/-
  The body's run at every LATER grid point: the branch is not taken, so the scratch is only read. The body loads
  `W₂`, the two adjacency blocks and the scratch — which holds what the first point stored, whatever that is — and
  stores the two 200-row halves of the result block. The inputs' buffers and the scratch come back as they were; the
  result's staging buffer ends holding its two stores, recorded as pieces the run finds.
-/
import proofs.«106846_g61306363183711_cont_9to1_m_1256_15_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later point's stores leave in the result's staging buffer, WITH the proof that on whole memrefs — the
    five inputs' and the scratch at their contents, the result's at anything — the body runs to a continuation holding
    those six as they were and the result's with its pieces written. -/
noncomputable def runLater (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) :
    { LO : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LO)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    iexists _; isplitr; · ipureintro; exact harg7.read_unread _
    iexact H6

end Cert.KernelIdeal.Hand

end
-- ==== Proof.KernelIdeal.Body.lean ====
/-
  The frame of the layer's kernel program, and what its run leaves in the result array.

  Between grid points the kernel carries one thing: the scratch of hidden features `x · W₁`, stored whole at the
  first point and only read afterwards. So the invariant between points is: before point 0 the scratch holds
  anything; before every later point it holds what point 0 stored. At each point the five input windows hold their
  blocks of the argument arrays — the two adjacency windows read ONE array, each holding half of its share — and
  the body leaves in the result's staging buffer its two 200-row stores, which tile the 400-row block.
  The launch is the library's for a one-region program whose input windows may share an array: the certificate
  says how the full share of each argument array is dealt among the windows on it (`hsplit`).
-/
import proofs.«106846_g61306363183711_cont_9to1_m_1256_15_alg».proof.Proof.KernelIdeal.RunLater
import Idealize.ShloMosaic.Lib.Pipeline.Launch
import Idealize.ShloMosaic.Lib.Pipeline.Kit
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover, and what they leave -/

/-- The first point's store into the scratch covers it (one whole-buffer piece). -/
theorem coverS_first (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) (y : S10000x32.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x32.size (by sl_kernel_rfl) y

/-- The first point's two stores into the result's staging buffer tile it (two pieces of 200 rows). -/
theorem coverO_first (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- So do a later point's. -/
theorem coverO_later (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-- What the first point leaves in the scratch: its pieces read back. -/
def hidFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) : Vec F S10000x32 .bf16 :=
  VS.read (Elt F) (VS.writes (Elt F) VS.junk (runFirst c i arg1 harg1 arg2 harg2 arg3 harg3 arg4 harg4 arg5 harg5 arg6 harg6 arg7 harg7 hc x0 x1 x2 x3 x4).2.1)

/-- What the first point leaves in the result's staging buffer. -/
def outFirst (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) : Vec F S400x128 .f32 :=
  VO.read (Elt F) (VO.writes (Elt F) VO.junk (runFirst c i arg1 harg1 arg2 harg2 arg3 harg3 arg4 harg4 arg5 harg5 arg6 harg6 arg7 harg7 hc x0 x1 x2 x3 x4).1)

/-- What a later point leaves there, the scratch holding `xs`. -/
def outLater (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) : Vec F S400x128 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
def t₀ : Fin cfg0.N := ⟨0, by rw [show cfg0.N = 25 from N_0]; decide⟩

theorem atFirst_t₀ : atFirst (grid0.coords t₀) := (atFirst_iff t₀).mpr rfl

/-- The hidden features the scratch holds from the first point on. -/
def hidden (c : Dev nD) : Vec F S10000x32 .bf16 :=
  hidFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) atFirst_t₀ (iblk m c 0 t₀) (iblk m c 1 t₀) (iblk m c 2 t₀) (iblk m c 3 t₀) (iblk m c 4 t₀)

/-- What the result's staging buffer holds after the body at point `t`. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) (ms5 t) (hs5 t) scM (Memref.isWhole_whole _) ((atFirst_iff t).mpr h) (iblk m c 0 t) (iblk m c 1 t) (iblk m c 2 t) (iblk m c 3 t) (iblk m c 4 t)
  else
    outLater c (grid0.coords t) (ms0 t) (hs0 t) (ms1 t) (hs1 t) (ms2 t) (hs2 t) (ms3 t) (hs3 t) (ms4 t) (hs4 t) (ms5 t) (hs5 t) scM (Memref.isWhole_whole _) (fun hc => h ((atFirst_iff t).mp hc)) (iblk m c 0 t) (iblk m c 1 t) (iblk m c 2 t) (iblk m c 3 t) (iblk m c 4 t) (hidden m c)

/-- The invariant before position `n`: the scratch at anything before the first point, at the hidden features after. -/
def PhiS (c : Dev nD) : (n : ℕ) → n ≤ cfg0.N → sProp 𝕄
  | 0, _ => iprop(∃ d, owns (c : Thread nD τ) scM fullShare d)
  | _ + 1, _ => owns (c : Thread nD τ) scM fullShare (hidden m c)

theorem PhiS_zero (c : Dev nD) (n : ℕ) (h : n ≤ cfg0.N) (hz : n = 0) :
    PhiS m c n h = iprop(∃ d, owns (c : Thread nD τ) scM fullShare d) := by subst hz; rfl

theorem PhiS_pos (c : Dev nD) (n : ℕ) (h : n ≤ cfg0.N) (hz : n ≠ 0) :
    PhiS m c n h = owns (c : Thread nD τ) scM fullShare (hidden m c) := by
  cases n with
  | zero => exact absurd rfl hz
  | succ n => rfl

/-! ## The pipeline's proof data -/

/-- The proof data of the one pipeline on core `c`: the arrays as the region finds them; after the body at point `t`
    each input's buffer at its block and the result's at `outAt`; the invariant `PhiS`; nothing owed; the two
    adjacency windows each hold HALF of their array's share, every other input the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- An input window's current staging buffer holds its block at every point, fetched there or not: where it is not
    fetched its block index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4800000 in
/-- The body at any point. The inputs' memrefs hold their blocks; at the first point the scratch holds anything and
    the first run applies, leaving the hidden features in it; at a later point it holds them and the later run
    applies, leaving them in place. Either way the result's buffer ends at `outAt`, its two stores tiling it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  by_cases hz : t.val = 0
  · rw [PhiS_zero m c _ _ hz]
    have ht : t = t₀ := Fin.ext hz
    subst ht
    rw [show outAt m c t₀ = outFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((atFirst_iff t₀).mpr rfl) (iblk m c 0 t₀) (iblk m c 1 t₀) (iblk m c 2 t₀) (iblk m c 3 t₀) (iblk m c 4 t₀) from dif_pos rfl]
    unfold outFirst hidden hidFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) atFirst_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverS_first c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverO_first c _ _ _ _ _ _ _ _ _ _ _ _ _ _ _ _ _ _ _ _ _)
  · rw [PhiS_pos m c _ _ hz]
    rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hc => hz ((atFirst_iff t).mp hc)) (iblk m c 0 t) (iblk m c 1 t) (iblk m c 2 t) (iblk m c 3 t) (iblk m c 4 t) (hidden m c) from dif_neg hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hc => hz ((atFirst_iff t).mp hc)) (iblk m c 0 t) (iblk m c 1 t) (iblk m c 2 t) (iblk m c 3 t) (iblk m c 4 t) (hidden m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverO_later c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Frame.lean ====
/-
  The launch of the layer's kernel program and its frame.

  @main is the kernel region alone. The launch deals each core its argument arrays whole; the region's pipeline
  holds one share per window. Four of the six windows sit on arrays of their own and take the whole share; the two
  adjacency windows sit on ONE array, whose full share is cut in its two halves, one for each (both only read it).
  The scratch of hidden features is the one scoped buffer that is no staging buffer: it enters the invariant at
  anything and leaves it forgotten. The run ends with every window's array at what the library computes from the
  proof data: an input's at its launch contents, the result's at its launch contents overwritten block by block.
-/
import proofs.«106846_g61306363183711_cont_9to1_m_1256_15_alg».proof.Proof.KernelIdeal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the arrays' shares are dealt -/

/-- A window's array, a whole buffer, held through its view is the buffer held. -/
theorem arr_pts (c : Dev nD) (w : Fin 6) (q : PosShare TreeShare) (f : Buf (Elt F) ((c : Thread nD τ).loc (Pipeline.arrRef spec0 w))) :
    (((spec0 w).arr.view.loc (c : Thread nD τ)) ↦[(spec0 w).arr.view.set]{q} f : sProp 𝕄)
      = (((c : Thread nD τ).loc (Pipeline.arrRef spec0 w)) ↦{q} f) := by
  rw [(arr_whole0 w).set_eq_univ]

/-- The six windows sit on five distinct buffers: a conjunction over those buffers, one by one. -/
theorem bigSep_arrRefs (Φ : Ref sig .tc → sProp 𝕄) :
    bigSep (Finset.univ.image (Pipeline.arrRef spec0)) Φ
      = iprop(Φ main_arg0 ∗ Φ main_arg2 ∗ Φ main_arg1 ∗ Φ main_arg3 ∗ Φ main_v0) :=
  bigSep_eq_bigSepL_of_eq [main_arg0, main_arg2, main_arg1, main_arg3, main_v0] (by decide) (by decide) Φ

/-- The five distinct buffers behind the six windows' arrays, each whole at the full share, make the pipeline's
    arrays at entry: the adjacency's full share is its left half for the first adjacency window and its right half for
    the second. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrRefs]
  iintro ⟨H0, H2, H1, H3, H5⟩
  ihave H1 := (pointsTo_share (PosShare.mem_left_op_right fullShare)).1 $$ H1
  icases H1 with ⟨H1l, H1r⟩
  isplitl [H0]; · iapply (Entails.of_eq (arr_pts c 0 _ _).symm); iexact H0
  isplitl [H2]; · iapply (Entails.of_eq (arr_pts c 1 _ _).symm); iexact H2
  isplitl [H1l]; · iapply (Entails.of_eq (arr_pts c 2 _ _).symm); iexact H1l
  isplitl [H1r]; · iapply (Entails.of_eq (arr_pts c 3 _ _).symm); iexact H1r
  isplitl [H3]; · iapply (Entails.of_eq (arr_pts c 4 _ _).symm); iexact H3
  iapply (Entails.of_eq (arr_pts c 5 _ _).symm); iexact H5

/-! ## The scratch enters and leaves the invariant -/

theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest0_eq]
  simp only [scM, owns_whole]
  iintro H; isplitr; · iempintro
  iexists _; iexact H

/-! ## The run -/

/-- At the compiled mesh, for any float values, from any memory with zero counters: every weakly fair execution of
    @main on the TensorCores terminates, and every final state has each window's array at what the library computes
    from the proof data. -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- THE FRAME: the program runs to the end, faults nowhere, and its four argument arrays end as they began — each is
    the array of input windows only, which the pipeline never writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1)),
     (h c 4).trans (((dats m 0 c).arrAt_in 4 rfl _).trans (A_eq m c 4))⟩) (run_main m ρ)

end Cert.KernelIdeal.Hand

end
-- ==== Proof.KernelIdeal.Pieces.lean ====
/-
  What the body's stores leave, named through the body's arithmetic.

  The hidden features the first point stores into the scratch are ONE pure term of the two blocks it loaded,
  `x · W₁` rounded to bf16. The result's staging buffer is filled by two stores of 200 rows each: rows 0–199 hold the
  first adjacency block times the hidden features times `W₂`, rows 200–399 the same of the second adjacency block.
  Which staging memrefs the body was called on does not matter, nor what they held before: the stores cover.
-/
import proofs.«106846_g61306363183711_cont_9to1_m_1256_15_alg».proof.Proof.KernelIdeal.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The result block after a point whose adjacency blocks are `a` (rows 0–199) and `b` (rows 200–399), the
    scratch holding `h`: the later store over the earlier, each through its rectangle of the 400-row block. -/
def outBlk (w2 : Vec F S32x128 .f32) (a b : Vec F S200x10000 .f32) (h : Vec F S10000x32 .bf16) : Vec F S400x128 .f32 :=
  View.canon [(⟨Rect.unit (s := S400x128) ![200, 0] S200x128.size inb_S400x128_S200x128_200_0, k0_pay4 w2 b h⟩ : View.Piece (Elt F) S400x128 .f32),
    (⟨Rect.unit (s := S400x128) ![0, 0] S200x128.size inb_S400x128_S200x128_0_0, k0_pay3 w2 a h⟩ : View.Piece (Elt F) S400x128 .f32)]

/-- The scratch after the first point is the hidden-features term of the two loaded blocks. -/
theorem hidFirst_eq (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) :
    hidFirst c i arg1 harg1 arg2 harg2 arg3 harg3 arg4 harg4 arg5 harg5 arg6 harg6 arg7 harg7 hc x0 x1 x2 x3 x4 = k0_pay1 x0 x1 := by
  unfold hidFirst
  rw [View.read_writes_eq_canon _ _ _ (coverS_first c i arg1 harg1 arg2 harg2 arg3 harg3 arg4 harg4 arg5 harg5 arg6 harg6 arg7 harg7 hc x0 x1 x2 x3 x4)]
  unfold runFirst
  dsimp only
  sl_unfold_words
  rw [View.canon_unit_zero hz2]
  simp only [View.readAt_eq_ld, Memref.IsWhole.read_unread, View.ld_unit_zero (S := S10000x128) hz2, View.ld_unit_zero (S := S128x32) hz2]

/-- The result block after a later point. -/
theorem outLater_eq (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : ¬atFirst i)
    (x0 : Vec F S10000x128 .f32) (x1 : Vec F S128x32 .f32) (x2 : Vec F S200x10000 .f32) (x3 : Vec F S200x10000 .f32) (x4 : Vec F S32x128 .f32) (xs : Vec F S10000x32 .bf16) :
    outLater c i arg1 harg1 arg2 harg2 arg3 harg3 arg4 harg4 arg5 harg5 arg6 harg6 arg7 harg7 hc x0 x1 x2 x3 x4 xs = outBlk x4 x2 x3 xs := by
  unfold outLater outBlk
  rw [View.read_writes_eq_canon _ _ _ (coverO_later c i arg1 harg1 arg2 harg2 arg3 harg3 arg4 harg4 arg5 harg5 arg6 harg6 arg7 harg7 hc x0 x1 x2 x3 x4 xs)]
  unfold runLater
  dsimp only
  sl_unfold_words
  simp only [View.readAt_eq_ld, Memref.IsWhole.read_unread, View.ld_unit_zero (S := S32x128) hz2, View.ld_unit_zero (S := S200x10000) hz2,
    View.ld_unit_zero (S := S10000x32) hz2]

/-- The result block after the first point: the scratch read back is what that point had just stored. -/
theorem outFirst_eq (c : Dev nD) (i : grid0.Coords) (arg1 : Memref sig .tc .vmem S10000x128 .f32) (harg1 : arg1.IsWhole) (arg2 : Memref sig .tc .vmem S128x32 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S32x128 .f32) (harg5 : arg5.IsWhole) (arg6 : Memref sig .tc .vmem S400x128 .f32) (harg6 : arg6.IsWhole) (arg7 : Memref sig .tc .vmem S10000x32 .bf16) (harg7 : arg7.IsWhole) (hc : atFirst i)
    (x0 : Vec F S10000x128 .f32) (x1 : Vec F S128x32 .f32) (x2 : Vec F S200x10000 .f32) (x3 : Vec F S200x10000 .f32) (x4 : Vec F S32x128 .f32) :
    outFirst c i arg1 harg1 arg2 harg2 arg3 harg3 arg4 harg4 arg5 harg5 arg6 harg6 arg7 harg7 hc x0 x1 x2 x3 x4 = outBlk x4 x2 x3 (k0_pay1 x0 x1) := by
  unfold outFirst outBlk
  rw [View.read_writes_eq_canon _ _ _ (coverO_first c i arg1 harg1 arg2 harg2 arg3 harg3 arg4 harg4 arg5 harg5 arg6 harg6 arg7 harg7 hc x0 x1 x2 x3 x4)]
  unfold runFirst
  dsimp only
  sl_unfold_words
  simp only [View.readAt_eq_ld, Memref.IsWhole.read_unread, View.readCov_unit_zero (S := S10000x32) _ hz2,
    View.ld_unit_zero (S := S32x128) hz2, View.ld_unit_zero (S := S200x10000) hz2,
    View.ld_unit_zero (S := S10000x128) hz2, View.ld_unit_zero (S := S128x32) hz2]

/-! ## Point by point, in closed form -/

theorem hidden_eq (c : Dev nD) : hidden m c = k0_pay1 (iblk m c 0 t₀) (iblk m c 1 t₀) := by
  unfold hidden; exact hidFirst_eq c _ _ _ _ _ _ _ _ _ _ _ _ _ _ _ _ _ _ _ _ _

/-- At the first point the hidden features are computed from that point's blocks of `x` and `W₁`; -/
theorem outAt_first (c : Dev nD) (t : Fin cfg0.N) (h : t.val = 0) :
    outAt m c t = outBlk (iblk m c 4 t) (iblk m c 2 t) (iblk m c 3 t) (k0_pay1 (iblk m c 0 t) (iblk m c 1 t)) := by
  unfold outAt; rw [dif_pos h]; exact outFirst_eq c _ _ _ _ _ _ _ _ _ _ _ _ _ _ _ _ _ _ _ _ _

/-- at a later point they are the first point's, read from the scratch. -/
theorem outAt_later (c : Dev nD) (t : Fin cfg0.N) (h : ¬t.val = 0) :
    outAt m c t = outBlk (iblk m c 4 t) (iblk m c 2 t) (iblk m c 3 t) (k0_pay1 (iblk m c 0 t₀) (iblk m c 1 t₀)) := by
  unfold outAt; rw [dif_neg h, outLater_eq, hidden_eq]

end Cert.KernelIdeal.Hand

end
-- ==== Proof.Spec.lean ====
/-
  The graph-convolution layer as mathematics, over the extended reals.

  With `x` the node features (10000 × 128), `W₁` (128 × 32) and `W₂` (32 × 128) the two weight matrices and `adj` the
  dense adjacency (10000 × 10000), the layer is the triple product `adj · (x · W₁) · W₂`. The hidden features
  `x · W₁` have 32 columns. The product can be bracketed in two ways:

  * aggregate first: `(adj · hidden) · W₂` — entry `(r, o)` is `∑ j, (∑ k, adj r k · hidden k j) · W₂ j o`;
  * expand first: `adj · (hidden · W₂)` — entry `(r, o)` is `∑ k, adj r k · (∑ j, hidden k j · W₂ j o)`.

  On the extended reals multiplication does not distribute over addition at the infinities, so the two bracketings
  agree only where the entries are finite; there they agree by distributivity and an exchange of the two sums.
  This module only names the two bracketings and the notion of a finite matrix; it imports no program.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array read by its two coordinates. -/
abbrev mat {n0 n1 : Nat} (A : (⟨2, ![n0, n1]⟩ : Shape).Idx → EReal) : Fin n0 → Fin n1 → EReal := fun a b => A (ix2 a b)

/-- Every entry of the matrix is a real number: neither infinity. -/
def Finite2 {n0 n1 : Nat} (a : Fin n0 → Fin n1 → EReal) : Prop := ∀ i j, a i j ≠ ⊤ ∧ a i j ≠ ⊥

/-- Entry `(k, j)` of the hidden features `x · W₁`: the 128 features of node `k` against column `j` of `W₁`. -/
def hid (x : Fin 10000 → Fin 128 → EReal) (w1 : Fin 128 → Fin 32 → EReal) (k : Fin 10000) (j : Fin 32) : EReal :=
  ∑ f : Fin 128, x k f * w1 f j

/-- Aggregate first, then expand: entry `(r, o)` of `(adj · hidden) · W₂`. -/
def aggThenExpand (x : Fin 10000 → Fin 128 → EReal) (adj : Fin 10000 → Fin 10000 → EReal) (w1 : Fin 128 → Fin 32 → EReal)
    (w2 : Fin 32 → Fin 128 → EReal) (r : Fin 10000) (o : Fin 128) : EReal :=
  ∑ j : Fin 32, (∑ k : Fin 10000, adj r k * hid x w1 k j) * w2 j o

/-- Expand first, then aggregate: entry `(r, o)` of `adj · (hidden · W₂)`. -/
def expandThenAgg (x : Fin 10000 → Fin 128 → EReal) (adj : Fin 10000 → Fin 10000 → EReal) (w1 : Fin 128 → Fin 32 → EReal)
    (w2 : Fin 32 → Fin 128 → EReal) (r : Fin 10000) (o : Fin 128) : EReal :=
  ∑ k : Fin 10000, adj r k * (∑ j : Fin 32, hid x w1 k j * w2 j o)

/-- The layer's result array, aggregate-first, as one function of the four argument arrays, index by index. -/
def layer (X : (⟨2, ![10000, 128]⟩ : Shape).Idx → EReal) (A : (⟨2, ![10000, 10000]⟩ : Shape).Idx → EReal)
    (W1 : (⟨2, ![128, 32]⟩ : Shape).Idx → EReal) (W2 : (⟨2, ![32, 128]⟩ : Shape).Idx → EReal) :
    (⟨2, ![10000, 128]⟩ : Shape).Idx → EReal :=
  fun i => aggThenExpand (mat X) (mat A) (mat W1) (mat W2) ⟨(i 0).val, idx2_lt0 i⟩ ⟨(i 1).val, idx2_lt1 i⟩

/-- The same array, expand-first. -/
def layerRef (X : (⟨2, ![10000, 128]⟩ : Shape).Idx → EReal) (A : (⟨2, ![10000, 10000]⟩ : Shape).Idx → EReal)
    (W1 : (⟨2, ![128, 32]⟩ : Shape).Idx → EReal) (W2 : (⟨2, ![32, 128]⟩ : Shape).Idx → EReal) :
    (⟨2, ![10000, 128]⟩ : Shape).Idx → EReal :=
  fun i => expandThenAgg (mat X) (mat A) (mat W1) (mat W2) ⟨(i 0).val, idx2_lt0 i⟩ ⟨(i 1).val, idx2_lt1 i⟩

end Cert.Gcn

end
-- ==== Proof.Payload.lean ====
/-
  The three values the kernel stores, read entry by entry as sums over the extended reals.

  Over the extended reals a change of float format is the identity, and a matrix product accumulated into a zero
  matrix is, at entry `(p, q)`, the plain sum `∑ k, lhs p k * rhs k q` over the contracted axis. So:

  * the hidden features the kernel keeps are `x · W₁` entry by entry (`pay1_apply`);
  * each of the two 200-row blocks of the result is `(adj_block · hidden) · W₂` entry by entry: the inner sum runs
    over the 10000 nodes, the outer over the 32 hidden columns (`pay3_apply`, `pay4_apply`).

  For each of the three contraction patterns the sum over the pattern's own one-axis index set is carried to a sum over
  `Fin K` through the bijection that reads the one coordinate; the four coordinate facts (which operand coordinate is
  the result's row, the result's column, or the summation variable) are proved apart, once per pattern.
-/
import proofs.«106846_g61306363183711_cont_9to1_m_1256_15_alg».proof.Proof.Spec
import proofs.«106846_g61306363183711_cont_9to1_m_1256_15_alg».proof.Proof.Gen.KernelIdeal
import proofs.«106846_g61306363183711_cont_9to1_m_1256_15_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Gcn.Pay

open Cert.KernelIdeal Cert.KernelIdeal.Gen Idealize.ShloMosaic Idealize.ShloMosaic.ValueIdx

/-! ## Features times first weights: 10000 × 128 against 128 × 32 -/

/-- Left operand's row coordinate under the contraction of `S10000x128` with `S128x32`: the result's row. -/
theorem lhs_xw_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- Left operand's column coordinate: the summation variable. -/
theorem lhs_xw_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- Right operand's row coordinate: the summation variable. -/
theorem rhs_xw_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- Right operand's column coordinate: the result's column. -/
theorem rhs_xw_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- A 10000 × 128 matrix times a 128 × 32 matrix, into zero: entry `(p, q)` is the sum over the 128 shared coordinates. -/
theorem matmul_xw_apply {φ₁ φ₂ : FTy} (lhs : FVec Ideal S10000x128 φ₁) (rhs : FVec Ideal S128x32 φ₂) (p : Fin 10000) (q : Fin 32) :
    matmul dot_S10000x128_S128x32_S10000x32_1_0_0_1_n_n none lhs rhs (constant (F := Ideal) S10000x32 .f32 0x00000000#32) (ix2 p q)
      = ∑ k : Fin 128, lhs (ix2 p k) * rhs (ix2 k q) := by
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-! ## Adjacency block times hidden features: 200 × 10000 against 10000 × 32 -/

/-- Left operand's row coordinate under the contraction of `S200x10000` with `S10000x32`: the result's row. -/
theorem lhs_ah_0 (i : S200x32.Idx) (q : dot_S200x10000_S10000x32_S200x32_1_0_0_1_n_n.contr.Idx) :
    (dot_S200x10000_S10000x32_S200x32_1_0_0_1_n_n.lhsIdx i q 0).val = (i 0).val := by
  unfold DotDims.lhsIdx
  rw [dif_neg (show ¬(0 : Fin S200x10000.rank) ∈ dot_S200x10000_S10000x32_S200x32_1_0_0_1_n_n.lhsBatch by decide), dif_pos (show (0 : Fin S200x10000.rank) ∈ dot_S200x10000_S10000x32_S200x32_1_0_0_1_n_n.lhsNonContracting by decide)]
  rfl
/-- Left operand's column coordinate: the summation variable. -/
theorem lhs_ah_1 (i : S200x32.Idx) (q : dot_S200x10000_S10000x32_S200x32_1_0_0_1_n_n.contr.Idx) :
    (dot_S200x10000_S10000x32_S200x32_1_0_0_1_n_n.lhsIdx i q 1).val = (q ⟨0, by decide⟩).val :=
  dot_S200x10000_S10000x32_S200x32_1_0_0_1_n_n.lhsIdx_val_of_single rfl i q
/-- Right operand's row coordinate: the summation variable. -/
theorem rhs_ah_0 (i : S200x32.Idx) (q : dot_S200x10000_S10000x32_S200x32_1_0_0_1_n_n.contr.Idx) :
    (dot_S200x10000_S10000x32_S200x32_1_0_0_1_n_n.rhsIdx i q 0).val = (q ⟨0, by decide⟩).val :=
  dot_S200x10000_S10000x32_S200x32_1_0_0_1_n_n.rhsIdx_val_of_single rfl i q
/-- Right operand's column coordinate: the result's column. -/
theorem rhs_ah_1 (i : S200x32.Idx) (q : dot_S200x10000_S10000x32_S200x32_1_0_0_1_n_n.contr.Idx) :
    (dot_S200x10000_S10000x32_S200x32_1_0_0_1_n_n.rhsIdx i q 1).val = (i 1).val := by
  unfold DotDims.rhsIdx
  rw [dif_neg (show ¬(1 : Fin S10000x32.rank) ∈ dot_S200x10000_S10000x32_S200x32_1_0_0_1_n_n.rhsBatch by decide), dif_pos (show (1 : Fin S10000x32.rank) ∈ dot_S200x10000_S10000x32_S200x32_1_0_0_1_n_n.rhsNonContracting by decide)]
  rfl

/-- A 200 × 10000 matrix times a 10000 × 32 matrix, into zero: entry `(p, q)` is the sum over the 10000 shared coordinates. -/
theorem matmul_ah_apply {φ₁ φ₂ : FTy} (lhs : FVec Ideal S200x10000 φ₁) (rhs : FVec Ideal S10000x32 φ₂) (p : Fin 200) (q : Fin 32) :
    matmul dot_S200x10000_S10000x32_S200x32_1_0_0_1_n_n none lhs rhs (constant (F := Ideal) S200x32 .f32 0x00000000#32) (ix2 p q)
      = ∑ k : Fin 10000, lhs (ix2 p k) * rhs (ix2 k q) := by
  simp only [matmul]
  rw [Ideal.matmul_constant_zero_apply, ← Equiv.sum_comp (contrEquiv1 dot_S200x10000_S10000x32_S200x32_1_0_0_1_n_n 10000 rfl rfl).symm]
  refine Finset.sum_congr rfl fun k _ => ?_
  have hk := contrEquiv1_symm_val dot_S200x10000_S10000x32_S200x32_1_0_0_1_n_n 10000 rfl rfl k
  have el : dot_S200x10000_S10000x32_S200x32_1_0_0_1_n_n.lhsIdx (ix2 p q) ((contrEquiv1 dot_S200x10000_S10000x32_S200x32_1_0_0_1_n_n 10000 rfl rfl).symm k) = ix2 p k := funext fun a => Fin.ext (by
    match a with
    | ⟨0, _⟩ => exact lhs_ah_0 _ _
    | ⟨1, _⟩ => exact (lhs_ah_1 _ _).trans hk)
  have er : dot_S200x10000_S10000x32_S200x32_1_0_0_1_n_n.rhsIdx (ix2 p q) ((contrEquiv1 dot_S200x10000_S10000x32_S200x32_1_0_0_1_n_n 10000 rfl rfl).symm k) = ix2 k q := funext fun a => Fin.ext (by
    match a with
    | ⟨0, _⟩ => exact (rhs_ah_0 _ _).trans hk
    | ⟨1, _⟩ => exact rhs_ah_1 _ _)
  rw [el, er]

/-! ## Aggregated block times second weights: 200 × 32 against 32 × 128 -/

/-- Left operand's row coordinate under the contraction of `S200x32` with `S32x128`: the result's row. -/
theorem lhs_hw_0 (i : S200x128.Idx) (q : dot_S200x32_S32x128_S200x128_1_0_0_1_n_n.contr.Idx) :
    (dot_S200x32_S32x128_S200x128_1_0_0_1_n_n.lhsIdx i q 0).val = (i 0).val := by
  unfold DotDims.lhsIdx
  rw [dif_neg (show ¬(0 : Fin S200x32.rank) ∈ dot_S200x32_S32x128_S200x128_1_0_0_1_n_n.lhsBatch by decide), dif_pos (show (0 : Fin S200x32.rank) ∈ dot_S200x32_S32x128_S200x128_1_0_0_1_n_n.lhsNonContracting by decide)]
  rfl
/-- Left operand's column coordinate: the summation variable. -/
theorem lhs_hw_1 (i : S200x128.Idx) (q : dot_S200x32_S32x128_S200x128_1_0_0_1_n_n.contr.Idx) :
    (dot_S200x32_S32x128_S200x128_1_0_0_1_n_n.lhsIdx i q 1).val = (q ⟨0, by decide⟩).val :=
  dot_S200x32_S32x128_S200x128_1_0_0_1_n_n.lhsIdx_val_of_single rfl i q
/-- Right operand's row coordinate: the summation variable. -/
theorem rhs_hw_0 (i : S200x128.Idx) (q : dot_S200x32_S32x128_S200x128_1_0_0_1_n_n.contr.Idx) :
    (dot_S200x32_S32x128_S200x128_1_0_0_1_n_n.rhsIdx i q 0).val = (q ⟨0, by decide⟩).val :=
  dot_S200x32_S32x128_S200x128_1_0_0_1_n_n.rhsIdx_val_of_single rfl i q
/-- Right operand's column coordinate: the result's column. -/
theorem rhs_hw_1 (i : S200x128.Idx) (q : dot_S200x32_S32x128_S200x128_1_0_0_1_n_n.contr.Idx) :
    (dot_S200x32_S32x128_S200x128_1_0_0_1_n_n.rhsIdx i q 1).val = (i 1).val := by
  unfold DotDims.rhsIdx
  rw [dif_neg (show ¬(1 : Fin S32x128.rank) ∈ dot_S200x32_S32x128_S200x128_1_0_0_1_n_n.rhsBatch by decide), dif_pos (show (1 : Fin S32x128.rank) ∈ dot_S200x32_S32x128_S200x128_1_0_0_1_n_n.rhsNonContracting by decide)]
  rfl

/-- A 200 × 32 matrix times a 32 × 128 matrix, into zero: entry `(p, q)` is the sum over the 32 shared coordinates. -/
theorem matmul_hw_apply {φ₁ φ₂ : FTy} (lhs : FVec Ideal S200x32 φ₁) (rhs : FVec Ideal S32x128 φ₂) (p : Fin 200) (q : Fin 128) :
    matmul dot_S200x32_S32x128_S200x128_1_0_0_1_n_n none lhs rhs (constant (F := Ideal) S200x128 .f32 0x00000000#32) (ix2 p q)
      = ∑ k : Fin 32, lhs (ix2 p k) * rhs (ix2 k q) := by
  simp only [matmul]
  rw [Ideal.matmul_constant_zero_apply, ← Equiv.sum_comp (contrEquiv1 dot_S200x32_S32x128_S200x128_1_0_0_1_n_n 32 rfl rfl).symm]
  refine Finset.sum_congr rfl fun k _ => ?_
  have hk := contrEquiv1_symm_val dot_S200x32_S32x128_S200x128_1_0_0_1_n_n 32 rfl rfl k
  have el : dot_S200x32_S32x128_S200x128_1_0_0_1_n_n.lhsIdx (ix2 p q) ((contrEquiv1 dot_S200x32_S32x128_S200x128_1_0_0_1_n_n 32 rfl rfl).symm k) = ix2 p k := funext fun a => Fin.ext (by
    match a with
    | ⟨0, _⟩ => exact lhs_hw_0 _ _
    | ⟨1, _⟩ => exact (lhs_hw_1 _ _).trans hk)
  have er : dot_S200x32_S32x128_S200x128_1_0_0_1_n_n.rhsIdx (ix2 p q) ((contrEquiv1 dot_S200x32_S32x128_S200x128_1_0_0_1_n_n 32 rfl rfl).symm k) = ix2 k q := funext fun a => Fin.ext (by
    match a with
    | ⟨0, _⟩ => exact (rhs_hw_0 _ _).trans hk
    | ⟨1, _⟩ => exact rhs_hw_1 _ _)
  rw [el, er]

/-! ## The three stored values -/

/-- The hidden features the kernel keeps: entry `(k, j)` is `∑ f, x k f * W₁ f j`. The format changes and the cast to
    the same shape leave every entry as it is. -/
theorem pay1_apply (v19 : Vec Ideal S10000x128 .f32) (v21 : Vec Ideal S128x32 .f32) (k : Fin 10000) (j : Fin 32) :
    k0_pay1 (F := Ideal) v19 v21 (ix2 k j) = hid (mat v19) (mat v21) k j := by
  unfold k0_pay1
  rw [shapeCast_self]
  refine (matmul_xw_apply _ _ k j).trans ?_
  exact Finset.sum_congr rfl fun f _ => rfl

/-- The first 200-row block of the result: entry `(r, o)` is `∑ j, (∑ k, adj r k * hidden k j) * W₂ j o`. -/
theorem pay3_apply (v3 : Vec Ideal S32x128 .f32) (v5 : Vec Ideal S200x10000 .f32) (v7 : Vec Ideal S10000x32 .bf16) (r : Fin 200) (o : Fin 128) :
    k0_pay3 (F := Ideal) v3 v5 v7 (ix2 r o) = ∑ j : Fin 32, (∑ k : Fin 10000, v5 (ix2 r k) * v7 (ix2 k j)) * v3 (ix2 j o) := by
  unfold k0_pay3 k0_pay2
  refine (matmul_hw_apply _ _ r o).trans ?_
  refine Finset.sum_congr rfl fun j _ => ?_
  refine congrArg (· * v3 (ix2 j o)) ?_
  exact matmul_ah_apply (φ₁ := .bf16) (φ₂ := .bf16) _ _ r j

/-- The second 200-row block of the result: the same sum over its own rows of the adjacency. -/
theorem pay4_apply (v3 : Vec Ideal S32x128 .f32) (v12 : Vec Ideal S200x10000 .f32) (v14 : Vec Ideal S10000x32 .bf16) (r : Fin 200) (o : Fin 128) :
    k0_pay4 (F := Ideal) v3 v12 v14 (ix2 r o) = ∑ j : Fin 32, (∑ k : Fin 10000, v12 (ix2 r k) * v14 (ix2 k j)) * v3 (ix2 j o) := by
  unfold k0_pay4 k0_pay2
  refine (matmul_hw_apply _ _ r o).trans ?_
  refine Finset.sum_congr rfl fun j _ => ?_
  refine congrArg (· * v3 (ix2 j o)) ?_
  exact matmul_ah_apply (φ₁ := .bf16) (φ₂ := .bf16) _ _ r j

end Cert.Gcn.Pay

end
-- ==== Proof.KernelIdeal.Final.lean ====
/-
  The result array after the run is the layer, aggregate-first, of the four argument arrays.
-/
import proofs.«106846_g61306363183711_cont_9to1_m_1256_15_alg».proof.Proof.KernelIdeal.Pieces
import proofs.«106846_g61306363183711_cont_9to1_m_1256_15_alg».proof.Proof.Payload
import Idealize.ShloMosaic.Lib.Pipeline.Value
import Idealize.ShloMosaic.Lib.ValueIdx
import Idealize.ShloMosaic.Lib.Ring
import Idealize.ShloMosaic.Lib.Tactic

set_option maxRecDepth 16384

noncomputable section

open scoped BigOperators

namespace Cert.KernelIdeal.HandValue

open Cert.KernelIdeal Cert.KernelIdeal.Gen Cert.KernelIdeal.Hand Cert.Gcn
open Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

/-! ## The windows' index maps over the grid -/

/-- The six windows' block indices at every grid point: the features and the two weight matrices are one block each;
    the two adjacency windows sit at block rows `2 t` and `2 t + 1`; the result's at block row `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is below 25. -/
theorem point_lt (t : Fin cfg0.N) : t.val < 25 := lt_of_lt_of_eq t.isLt (show cfg0.N = 25 from N_0)

/-! ## The input blocks, read at coordinates -/

/-- The features' window holds the whole feature matrix at every point. -/
theorem featBlk_apply (c : Dev nD) (t : Fin cfg0.N) (k : Fin 10000) (f : Fin 128) :
    iblk (F := Ideal) m c 0 t (ix2 k f) = V m c main_arg0 (ix2 k f) := by
  unfold iblk
  show V m c main_arg0 (((cfg0.win 0).blk t).view.emb (ix2 k f)) = V m c main_arg0 (ix2 k f)
  refine congrArg _ ?_
  obtain ⟨e0, e1, -⟩ := idx_facts t
  funext a; apply Fin.ext
  match a with
  | ⟨0, _⟩ => show win0_0.index t (0 : Fin 2) * 10000 + 1 * k.val = k.val; omega
  | ⟨1, _⟩ => show win0_0.index t (1 : Fin 2) * 128 + 1 * f.val = f.val; omega

/-- The first weights' window holds the whole of `W₁`. -/
theorem w1Blk_apply (c : Dev nD) (t : Fin cfg0.N) (f : Fin 128) (j : Fin 32) :
    iblk (F := Ideal) m c 1 t (ix2 f j) = V m c main_arg2 (ix2 f j) := by
  unfold iblk
  show V m c main_arg2 (((cfg0.win 1).blk t).view.emb (ix2 f j)) = V m c main_arg2 (ix2 f j)
  refine congrArg _ ?_
  obtain ⟨-, -, e0, e1, -⟩ := idx_facts t
  funext a; apply Fin.ext
  match a with
  | ⟨0, _⟩ => show win0_1.index t (0 : Fin 2) * 128 + 1 * f.val = f.val; omega
  | ⟨1, _⟩ => show win0_1.index t (1 : Fin 2) * 32 + 1 * j.val = j.val; omega

/-- The first adjacency window holds rows `400 t … 400 t + 199` of the adjacency. -/
theorem adjLoBlk_apply (c : Dev nD) (t : Fin cfg0.N) (r : Fin 200) (k : Fin 10000) (hR : 400 * t.val + r.val < 10000) :
    iblk (F := Ideal) m c 2 t (ix2 r k) = V m c main_arg1 (ix2 (⟨400 * t.val + r.val, hR⟩ : Fin 10000) k) := by
  unfold iblk
  show V m c main_arg1 (((cfg0.win 2).blk t).view.emb (ix2 r k)) = V m c main_arg1 (ix2 (⟨400 * t.val + r.val, hR⟩ : Fin 10000) k)
  refine congrArg _ ?_
  obtain ⟨-, -, -, -, e0, e1, -⟩ := idx_facts t
  funext a; apply Fin.ext
  match a with
  | ⟨0, _⟩ => show win0_2.index t (0 : Fin 2) * 200 + 1 * r.val = 400 * t.val + r.val; omega
  | ⟨1, _⟩ => show win0_2.index t (1 : Fin 2) * 10000 + 1 * k.val = k.val; omega

/-- The second adjacency window holds rows `400 t + 200 … 400 t + 399`. -/
theorem adjHiBlk_apply (c : Dev nD) (t : Fin cfg0.N) (r : Fin 200) (k : Fin 10000) (hR : 400 * t.val + 200 + r.val < 10000) :
    iblk (F := Ideal) m c 3 t (ix2 r k) = V m c main_arg1 (ix2 (⟨400 * t.val + 200 + r.val, hR⟩ : Fin 10000) k) := by
  unfold iblk
  show V m c main_arg1 (((cfg0.win 3).blk t).view.emb (ix2 r k)) = V m c main_arg1 (ix2 (⟨400 * t.val + 200 + r.val, hR⟩ : Fin 10000) k)
  refine congrArg _ ?_
  obtain ⟨-, -, -, -, -, -, e0, e1, -⟩ := idx_facts t
  funext a; apply Fin.ext
  match a with
  | ⟨0, _⟩ => show win0_3.index t (0 : Fin 2) * 200 + 1 * r.val = 400 * t.val + 200 + r.val; omega
  | ⟨1, _⟩ => show win0_3.index t (1 : Fin 2) * 10000 + 1 * k.val = k.val; omega

/-- The second weights' window holds the whole of `W₂`. -/
theorem w2Blk_apply (c : Dev nD) (t : Fin cfg0.N) (j : Fin 32) (o : Fin 128) :
    iblk (F := Ideal) m c 4 t (ix2 j o) = V m c main_arg3 (ix2 j o) := by
  unfold iblk
  show V m c main_arg3 (((cfg0.win 4).blk t).view.emb (ix2 j o)) = V m c main_arg3 (ix2 j o)
  refine congrArg _ ?_
  obtain ⟨-, -, -, -, -, -, -, -, e0, e1, -⟩ := idx_facts t
  funext a; apply Fin.ext
  match a with
  | ⟨0, _⟩ => show win0_4.index t (0 : Fin 2) * 32 + 1 * j.val = j.val; omega
  | ⟨1, _⟩ => show win0_4.index t (1 : Fin 2) * 128 + 1 * o.val = o.val; omega

/-! ## The result block at a point -/

/-- A 400-row block filled by the two 200-row stores is one function `G` of its index as soon as each store's value is
    `G` read through that store's rows: the stores tile the block. -/
theorem outBlk_apply (w2 : Vec Ideal S32x128 .f32) (a b : Vec Ideal S200x10000 .f32) (h : Vec Ideal S10000x32 .bf16)
    (G : S400x128.Idx → Elt Ideal .f32)
    (hlo : ∀ (r : Fin 200) (o : Fin 128) (hr : r.val < 400),
      k0_pay3 (F := Ideal) w2 a h (ix2 r o) = G (ix2 (⟨r.val, hr⟩ : Fin 400) o))
    (hhi : ∀ (r : Fin 200) (o : Fin 128) (hr : 200 + r.val < 400),
      k0_pay4 (F := Ideal) w2 b h (ix2 r o) = G (ix2 (⟨200 + r.val, hr⟩ : Fin 400) o))
    (y : S400x128.Idx) : outBlk w2 a b h y = G y := by
  unfold outBlk
  refine View.canon_apply_of_pieces G _ ?_ y (View.cover_of_tiledL (s := S400x128) _ S200x128.size (by sl_kernel_rfl) y)
  intro p hp x
  rcases List.mem_cons.mp hp with rfl | hp
  · have hx0 : (x 0).val < 200 := (x 0).isLt
    refine (congrArg (k0_pay4 (F := Ideal) w2 b h) (eq_ix2 x)).trans ((hhi (x 0) (x 1) (by omega)).trans (congrArg G ?_))
    funext d; apply Fin.ext
    match d with
    | ⟨0, _⟩ => show 200 + (x 0).val = 200 + 1 * (x 0).val; omega
    | ⟨1, _⟩ => show (x 1).val = 0 + 1 * (x 1).val; omega
  · rcases List.mem_cons.mp hp with rfl | hp
    · have hx0 : (x 0).val < 200 := (x 0).isLt
      refine (congrArg (k0_pay3 (F := Ideal) w2 a h) (eq_ix2 x)).trans ((hlo (x 0) (x 1) (by omega)).trans (congrArg G ?_))
      funext d; apply Fin.ext
      match d with
      | ⟨0, _⟩ => show (x 0).val = 0 + 1 * (x 0).val; omega
      | ⟨1, _⟩ => show (x 1).val = 0 + 1 * (x 1).val; omega
    · exact absurd hp List.not_mem_nil

/-- The block after a point, over blocks described entry by entry: with the features' and first weights' blocks the whole
    matrices, the two adjacency blocks rows `400 T + r` and `400 T + 200 + r` of the adjacency and the second weights' block
    the whole of `W₂`, row `r` of the block is row `400 T + r` of `(adj · (x · W₁)) · W₂`. -/
theorem outBlk_layer (X : (⟨2, ![10000, 128]⟩ : Shape).Idx → EReal) (A : (⟨2, ![10000, 10000]⟩ : Shape).Idx → EReal)
    (W1 : (⟨2, ![128, 32]⟩ : Shape).Idx → EReal) (W2 : (⟨2, ![32, 128]⟩ : Shape).Idx → EReal) (T : ℕ) (hT : T < 25)
    (w2 : Vec Ideal S32x128 .f32) (a b : Vec Ideal S200x10000 .f32) (x : Vec Ideal S10000x128 .f32) (w1 : Vec Ideal S128x32 .f32)
    (hx : ∀ (k : Fin 10000) (f : Fin 128), x (ix2 k f) = X (ix2 k f))
    (hw1 : ∀ (f : Fin 128) (j : Fin 32), w1 (ix2 f j) = W1 (ix2 f j))
    (ha : ∀ (r : Fin 200) (k : Fin 10000) (hR : 400 * T + r.val < 10000), a (ix2 r k) = A (ix2 (⟨400 * T + r.val, hR⟩ : Fin 10000) k))
    (hb : ∀ (r : Fin 200) (k : Fin 10000) (hR : 400 * T + 200 + r.val < 10000), b (ix2 r k) = A (ix2 (⟨400 * T + 200 + r.val, hR⟩ : Fin 10000) k))
    (hw2 : ∀ (j : Fin 32) (o : Fin 128), w2 (ix2 j o) = W2 (ix2 j o))
    (r : Fin 400) (o : Fin 128) (hR : 400 * T + r.val < 10000) :
    outBlk w2 a b (k0_pay1 x w1) (ix2 r o) = aggThenExpand (mat X) (mat A) (mat W1) (mat W2) ⟨400 * T + r.val, hR⟩ o := by
  have hhid : ∀ (k : Fin 10000) (j : Fin 32), k0_pay1 (F := Ideal) x w1 (ix2 k j) = hid (mat X) (mat W1) k j := fun k j => by
    rw [Pay.pay1_apply]; unfold hid
    exact Finset.sum_congr rfl fun f _ => by
      show x (ix2 k f) * w1 (ix2 f j) = X (ix2 k f) * W1 (ix2 f j)
      rw [hx, hw1]
  refine (outBlk_apply w2 a b _ (fun y : (⟨2, ![400, 128]⟩ : Shape).Idx =>
      aggThenExpand (mat X) (mat A) (mat W1) (mat W2) ⟨400 * T + (y 0).val, by have := idx2_lt0 y; omega⟩ ⟨(y 1).val, idx2_lt1 y⟩) ?_ ?_ (ix2 r o)).trans rfl
  · intro r' o' hr
    rw [Pay.pay3_apply]
    show _ = aggThenExpand (mat X) (mat A) (mat W1) (mat W2) ⟨400 * T + r'.val, by omega⟩ o'
    unfold aggThenExpand
    refine Finset.sum_congr rfl fun j _ => ?_
    show _ = _ * W2 (ix2 j o')
    rw [hw2 j o']
    refine congrArg (· * W2 (ix2 j o')) ?_
    refine Finset.sum_congr rfl fun k _ => ?_
    show _ = A (ix2 (⟨400 * T + r'.val, by omega⟩ : Fin 10000) k) * _
    rw [ha r' k (by omega), hhid k j]
  · intro r' o' hr
    rw [Pay.pay4_apply]
    show _ = aggThenExpand (mat X) (mat A) (mat W1) (mat W2) ⟨400 * T + (200 + r'.val), by omega⟩ o'
    unfold aggThenExpand
    refine Finset.sum_congr rfl fun j _ => ?_
    show _ = _ * W2 (ix2 j o')
    rw [hw2 j o']
    refine congrArg (· * W2 (ix2 j o')) ?_
    refine Finset.sum_congr rfl fun k _ => ?_
    show _ = A (ix2 (⟨400 * T + (200 + r'.val), by omega⟩ : Fin 10000) k) * _
    rw [hb r' k (by omega), hhid k j]
    refine congrArg (fun z : Fin 10000 => A (ix2 z k) * hid (mat X) (mat W1) k j) (Fin.ext ?_)
    show 400 * T + 200 + r'.val = 400 * T + (200 + r'.val)
    omega

/-- What the result's staging buffer holds after point `t`: row `r` is row `400 t + r` of the layer, aggregate-first.
    At the first point the hidden features are computed there; later they are the first point's — the same, the features'
    and first weights' windows never moving. -/
theorem outAt_apply (c : Dev nD) (t : Fin cfg0.N) (r : Fin 400) (o : Fin 128) (hR : 400 * t.val + r.val < 10000) :
    outAt (F := Ideal) m c t (ix2 r o)
      = aggThenExpand (mat (V m c main_arg0)) (mat (V m c main_arg1)) (mat (V m c main_arg2)) (mat (V m c main_arg3)) ⟨400 * t.val + r.val, hR⟩ o := by
  by_cases hz : t.val = 0
  · rw [outAt_first m c t hz]
    exact outBlk_layer (V m c main_arg0) (V m c main_arg1) (V m c main_arg2) (V m c main_arg3) t.val (point_lt t)
      (iblk m c 4 t) (iblk m c 2 t) (iblk m c 3 t) (iblk m c 0 t) (iblk m c 1 t)
      (featBlk_apply m c t) (w1Blk_apply m c t) (adjLoBlk_apply m c t) (adjHiBlk_apply m c t) (w2Blk_apply m c t) r o hR
  · rw [outAt_later m c t hz]
    exact outBlk_layer (V m c main_arg0) (V m c main_arg1) (V m c main_arg2) (V m c main_arg3) t.val (point_lt t)
      (iblk m c 4 t) (iblk m c 2 t) (iblk m c 3 t) (iblk m c 0 t₀) (iblk m c 1 t₀)
      (featBlk_apply m c t₀) (w1Blk_apply m c t₀) (adjLoBlk_apply m c t) (adjHiBlk_apply m c t) (w2Blk_apply m c t) r o hR

/-! ## From the blocks to the array -/

/-- What point `t` writes back is block `t` of the layer: rows `400 t … 400 t + 399`. -/
theorem flushed_eq (c : Dev nD) (t : Fin cfg0.N) :
    (dats (F := Ideal) m 0 c).flushed 5 t
      = ((cfg0.win 5).blk t).view.read (Elt Ideal) (layer (V m c main_arg0) (V m c main_arg1) (V m c main_arg2) (V m c main_arg3)) := by
  show (cfg0.win 5).cut (grid0.coords t) ((dats (F := Ideal) m 0 c).after 5 t) = _
  rw [after_5]
  funext j
  have ht := point_lt t
  have hj0 : (j 0).val < 400 := (j 0).isLt
  have hj1 : (j 1).val < 128 := (j 1).isLt
  obtain ⟨-, -, -, -, -, -, -, -, -, -, e0, e1⟩ := idx_facts t
  show outAt (F := Ideal) m c t j
    = layer (V m c main_arg0) (V m c main_arg1) (V m c main_arg2) (V m c main_arg3) (((cfg0.win 5).blk t).view.emb j)
  refine (congrArg (outAt (F := Ideal) m c t) (eq_ix2 j)).trans
    ((outAt_apply m c t ⟨(j 0).val, hj0⟩ ⟨(j 1).val, hj1⟩ (by omega)).trans ?_)
  unfold layer
  congr 1 <;> apply Fin.ext
  · show 400 * t.val + (j 0).val = win0_5.index t (0 : Fin 2) * 400 + 1 * (j 0).val; omega
  · show (j 1).val = win0_5.index t (1 : Fin 2) * 128 + 1 * (j 1).val; omega

/-- An index of the result array is in point `t`'s block iff each coordinate is in the block's range on its axis. -/
theorem mem_blk (t : Fin cfg0.N) (i : S10000x128.Idx) :
    i ∈ ((cfg0.win 5).blk t).view.set
      ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- The 25 blocks of 400 rows fill the 10000 rows: row `R` is in the block of point `R / 400`. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hq : (i 0).val / 400 < cfg0.N := by rw [show cfg0.N = 25 from N_0]; omega
  refine ⟨⟨(i 0).val / 400, hq⟩, flush0_5 _, ?_⟩
  rw [mem_blk]
  obtain ⟨-, -, -, -, -, -, -, -, -, -, e0, e1⟩ := idx_facts ⟨(i 0).val / 400, hq⟩
  intro a
  match a with
  | ⟨0, _⟩ =>
    show win0_5.index ⟨(i 0).val / 400, hq⟩ (0 : Fin 2) * 400 ≤ (i 0).val
      ∧ (i 0).val < win0_5.index ⟨(i 0).val / 400, hq⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, hq⟩ (1 : Fin 2) * 128 ≤ (i 1).val
      ∧ (i 1).val < win0_5.index ⟨(i 0).val / 400, hq⟩ (1 : Fin 2) * 128 + 128
    rw [e1]; omega

/-- The result array after the run: the layer, aggregate-first, of the four argument arrays as the run finds them. -/
theorem final (c : Dev nD) :
    (dats (F := Ideal) m 0 c).arrAt 5 cfg0.N
      = Cert.Gcn.layer (V m c main_arg0) (V m c main_arg1) (V m c main_arg2) (V m c main_arg3) :=
  (dats (F := Ideal) m 0 c).arrAt_eq_of_cover 5 (layer (V m c main_arg0) (V m c main_arg1) (V m c main_arg2) (V m c main_arg3))
    (fun t _ => flushed_eq m c t) cover

end Cert.KernelIdeal.HandValue

end
-- ==== Proof.Algebra.lean ====
/-
  The two bracketings of the triple product `adj · (x · W₁) · W₂` agree on matrices of real entries.

  Every entry being a real number, each matrix is the entrywise coercion of a real matrix. Coercion from the reals
  to the extended reals commutes with products and with finite sums, so each bracketing is the coercion of the
  same bracketing computed in the reals; and in the reals the two agree by distributivity and one exchange of the
  order of summation.
-/
import proofs.«106846_g61306363183711_cont_9to1_m_1256_15_alg».proof.Proof.Spec
import Mathlib.Data.EReal.Basic
import Mathlib.Algebra.BigOperators.Ring.Finset
import Mathlib.Algebra.BigOperators.Group.Finset.Basic

noncomputable section

open scoped BigOperators

namespace Cert.Gcn

open Idealize.ShloMosaic Idealize.ShloMosaic.ValueIdx

/-- Coercion of reals into the extended reals commutes with a finite sum. -/
theorem coe_finsum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- In the reals: `∑ j, (∑ k, a k * h k j) * w j = ∑ k, a k * ∑ j, h k j * w j`. Distribute `w j` into the inner
sum on the left and `a k` into the inner sum on the right, reassociate, and exchange the two sums. -/
theorem real_assoc {K J : Type*} [Fintype K] [Fintype J] (a : K → ℝ) (h : K → J → ℝ) (w : J → ℝ) :
    ∑ j, (∑ k, a k * h k j) * w j = ∑ k, a k * ∑ j, h k j * w j := by
  simp only [Finset.sum_mul, Finset.mul_sum, mul_assoc]
  exact Finset.sum_comm

/-- The same identity for extended reals that are coercions of reals, with the hidden matrix itself a product
`h k j = ∑ f, x k f * w₁ f j`. Both sides are the coercion of one real number. -/
theorem coe_assoc {K J F : Type*} [Fintype K] [Fintype J] [Fintype F]
    (a : K → ℝ) (x : K → F → ℝ) (w1 : F → J → ℝ) (w2 : J → ℝ) :
    (∑ j, (∑ k, (a k : EReal) * ∑ f, (x k f : EReal) * (w1 f j : EReal)) * (w2 j : EReal))
      = ∑ k, (a k : EReal) * ∑ j, (∑ f, (x k f : EReal) * (w1 f j : EReal)) * (w2 j : EReal) := by
  simp only [← EReal.coe_mul, ← coe_finsum]
  exact congrArg _ (real_assoc a (fun k j => ∑ f, x k f * w1 f j) w2)

/-- A matrix of real entries is the entrywise coercion of a real matrix (that of its real parts). -/
theorem Finite2.exists_real {n0 n1 : Nat} {a : Fin n0 → Fin n1 → EReal} (ha : Finite2 a) :
    ∃ a' : Fin n0 → Fin n1 → ℝ, a = fun i j => (a' i j : EReal) :=
  ⟨fun i j => (a i j).toReal, by
    funext i j
    exact (EReal.coe_toReal (ha i j).1 (ha i j).2).symm⟩

/-- Entry by entry, aggregating first and expanding first give the same value when all four matrices have real
entries. -/
theorem aggThenExpand_eq_expandThenAgg
    {x : Fin 10000 → Fin 128 → EReal} {adj : Fin 10000 → Fin 10000 → EReal} {w1 : Fin 128 → Fin 32 → EReal}
    {w2 : Fin 32 → Fin 128 → EReal}
    (hx : Finite2 x) (hadj : Finite2 adj) (hw1 : Finite2 w1) (hw2 : Finite2 w2) (r : Fin 10000) (o : Fin 128) :
    aggThenExpand x adj w1 w2 r o = expandThenAgg x adj w1 w2 r o := by
  obtain ⟨x', rfl⟩ := hx.exists_real
  obtain ⟨adj', rfl⟩ := hadj.exists_real
  obtain ⟨w1', rfl⟩ := hw1.exists_real
  obtain ⟨w2', rfl⟩ := hw2.exists_real
  exact coe_assoc (fun k => adj' r k) x' w1' (fun j => w2' j o)

/-- The two result arrays are equal as functions of the index. -/
theorem layer_eq_layerRef (X : (⟨2, ![10000, 128]⟩ : Shape).Idx → EReal)
    (A : (⟨2, ![10000, 10000]⟩ : Shape).Idx → EReal) (W1 : (⟨2, ![128, 32]⟩ : Shape).Idx → EReal)
    (W2 : (⟨2, ![32, 128]⟩ : Shape).Idx → EReal)
    (hX : Finite2 (mat X)) (hA : Finite2 (mat A)) (hW1 : Finite2 (mat W1)) (hW2 : Finite2 (mat W2)) :
    layer X A W1 W2 = layerRef X A W1 W2 := by
  funext i
  exact aggThenExpand_eq_expandThenAgg hX hA hW1 hW2 _ _

end Cert.Gcn

end
-- ==== Proof.RefRead.lean ====
/-
  The reference program is the expand-first bracketing of the graph-convolution layer.

  The reference computes three matrix products in a row: the hidden features `x · W₁`, then their expansion
  `(x · W₁) · W₂`, then the aggregation `adj · ((x · W₁) · W₂)`. Each product, read at one entry, is a finite sum
  over the contracted axis of an entry of the left factor times an entry of the right factor. Unfolding the three
  products from the outside in, entry `(r, o)` of the result is
  `∑ k, adj r k · (∑ j, (∑ f, x k f · W₁ f j) · W₂ j o)`, which is the expand-first bracketing term by term.
  Nothing is rearranged: the only work is to see that the index at which each factor is read is the pair of
  coordinates the bracketing names.
-/
import proofs.«106846_g61306363183711_cont_9to1_m_1256_15_alg».proof.Proof.Spec
import proofs.«106846_g61306363183711_cont_9to1_m_1256_15_alg».proof.Proof.Gen.ReferenceIdeal.Read

noncomputable section

open scoped BigOperators

namespace Cert.Gcn.Ref

open Idealize.ShloMosaic Idealize.ShloMosaic.ValueIdx Cert.ReferenceIdeal Cert.ReferenceIdeal.Read

/-! ### Where each product reads its factors

For a product whose result is read at the index `i` and whose contracted coordinate is `k`, the left factor is read
at (row of `i`, `k`) and the right factor at (`k`, column of `i`). The six statements below say this for the three
products, with the result index already written as a pair of coordinates where the previous step produced a pair. -/

/-- The aggregation reads the adjacency at (row of `i`, `k`). -/
theorem agg_left (i : S10000x128.Idx) (k : Fin 10000) :
    lidx_main_v2 i k = ix2 (⟨(i 0).val, idx2_lt0 i⟩ : Fin 10000) k :=
  funext fun a => Fin.ext (by match a with | ⟨0, _⟩ => rfl | ⟨1, _⟩ => rfl)

/-- The aggregation reads the expanded features at (`k`, column of `i`). -/
theorem agg_right (i : S10000x128.Idx) (k : Fin 10000) :
    ridx_main_v2 i k = ix2 k (⟨(i 1).val, idx2_lt1 i⟩ : Fin 128) :=
  funext fun a => Fin.ext (by match a with | ⟨0, _⟩ => rfl | ⟨1, _⟩ => rfl)

/-- The expansion at entry `(k, o)` reads the hidden features at `(k, j)`. -/
theorem exp_left (k : Fin 10000) (o : Fin 128) (j : Fin 32) :
    lidx_main_v1 (ix2 k o) j = ix2 k j :=
  funext fun a => Fin.ext (by match a with | ⟨0, _⟩ => rfl | ⟨1, _⟩ => rfl)

/-- The expansion at entry `(k, o)` reads `W₂` at `(j, o)`. -/
theorem exp_right (k : Fin 10000) (o : Fin 128) (j : Fin 32) :
    ridx_main_v1 (ix2 k o) j = ix2 j o :=
  funext fun a => Fin.ext (by match a with | ⟨0, _⟩ => rfl | ⟨1, _⟩ => rfl)

/-- The hidden features at entry `(k, j)` read `x` at `(k, f)`. -/
theorem hid_left (k : Fin 10000) (j : Fin 32) (f : Fin 128) :
    lidx_main_v0 (ix2 k j) f = ix2 k f :=
  funext fun a => Fin.ext (by match a with | ⟨0, _⟩ => rfl | ⟨1, _⟩ => rfl)

/-- The hidden features at entry `(k, j)` read `W₁` at `(f, j)`. -/
theorem hid_right (k : Fin 10000) (j : Fin 32) (f : Fin 128) :
    ridx_main_v0 (ix2 k j) f = ix2 f j :=
  funext fun a => Fin.ext (by match a with | ⟨0, _⟩ => rfl | ⟨1, _⟩ => rfl)

/-- The reference's result is the layer, expand-first. -/
theorem ref_eq_layerRef (X : (⟨Cert.ReferenceIdeal.S10000x128, .f32⟩ : BufTy).Contents (Elt Ideal))
    (A : (⟨Cert.ReferenceIdeal.S10000x10000, .f32⟩ : BufTy).Contents (Elt Ideal))
    (W1 : (⟨Cert.ReferenceIdeal.S128x32, .f32⟩ : BufTy).Contents (Elt Ideal))
    (W2 : (⟨Cert.ReferenceIdeal.S32x128, .f32⟩ : BufTy).Contents (Elt Ideal)) :
    Cert.ReferenceIdeal.Read.val_main_v2 (F := Ideal) X A W1 W2 = Cert.Gcn.layerRef X A W1 W2 := by
  funext i
  rw [val_main_v2_apply]
  unfold Cert.Gcn.layerRef Cert.Gcn.expandThenAgg
  refine Finset.sum_congr rfl fun k _ => ?_
  rw [agg_left, agg_right, val_main_v1_apply]
  refine congrArg (fun t => A (ix2 (⟨(i 0).val, idx2_lt0 i⟩ : Fin 10000) k) * t) ?_
  refine Finset.sum_congr rfl fun j _ => ?_
  rw [exp_left, exp_right, val_main_v0_apply]
  unfold Cert.Gcn.hid
  refine congrArg (fun t => t * W2 (ix2 j (⟨(i 1).val, idx2_lt1 i⟩ : Fin 128))) ?_
  refine Finset.sum_congr rfl fun f _ => ?_
  rw [hid_left, hid_right]

end Cert.Gcn.Ref

end
-- ==== Proof.Finite.lean ====
/-
  From the precondition to "every entry of every argument is a real number".

  The precondition forms, for each of the four argument arrays, the conjunction over all entries of the test
  `|x| < +∞`, and then the conjunction of the four results; it is stated to be the one-bit word 1. A conjunction of
  one-bit words is 1 only when each of them is; a conjunction over all entries that is 1 met a 1 at every entry; and
  an extended real `x` with `max x (-x) < ⊤` is neither `⊤` (then `x` itself would be `⊤`) nor `⊥` (then `-x`
  would be `⊤`). So every entry of every argument is a real number.
-/
import proofs.«106846_g61306363183711_cont_9to1_m_1256_15_alg».proof.Proof.Spec
import proofs.«106846_g61306363183711_cont_9to1_m_1256_15_alg».proof.Pre_finite_inputs
import proofs.«106846_g61306363183711_cont_9to1_m_1256_15_alg».proof.Proof.Gen.Pre_finite_inputs
import Idealize.ShloMosaic.Lib.ReduceAll
import Idealize.ShloMosaic.Lib.ValueIdx
import Mathlib.Data.EReal.Operations
import Mathlib.Order.MinMax

noncomputable section

namespace Cert.Gcn

open Idealize.ShloMosaic Idealize.ShloMosaic.ValueIdx
open Cert.Pre_finite_inputs Cert.Pre_finite_inputs.Gen

/-- The shape with no axes has exactly one index. -/
instance subsingleton_scalar_idx : Subsingleton S_.Idx := ⟨fun _ _ => funext fun d => d.elim0⟩

/-- The bit pattern `0x7F800000` read as an extended real is `+∞`. -/
theorem ofBits_inf : Ideal.ofBits .f32 0x7F800000#32 = (⊤ : EReal) := by simp [Ideal.ofBits, Ideal.ieee]

/-- An extended real whose absolute value `max x (-x)` tests strictly below `+∞` is a real number: `x < ⊤` rules out
    `⊤`, and `-x < ⊤` rules out `⊥`, whose negative is `⊤`. -/
theorem real_of_abs_lt_inf (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hn
    simp [Ideal.cmp, hn] at h
  rw [max_lt_iff] at hlt
  refine ⟨ne_of_lt hlt.1, ?_⟩
  rintro rfl
  have hneg := hlt.2
  rw [EReal.neg_bot] at hneg
  exact lt_irrefl _ hneg

/-- One argument array: if the conjunction over all its entries of `|x| < +∞` is 1, every entry is a real number. -/
theorem real_entries_of_all {s : Shape} {axes : List (Fin s.rank)} (X : FVec Ideal s .f32)
    (bc : S_.BroadcastsInDim s (![] : Fin 0 → Fin s.rank)) (hr : s.ReducesTo axes S_) (hu : 0 < S_.numel)
    (e : Host.reduce IntOp.andi
          (cmpf .olt (Host.absf X) (broadcastInDim s ![] bc (constant (F := Ideal) S_ .f32 0x7F800000#32)))
          (constantI S_ 1 1#1) hr hu ix0 = 1#1)
    (i : s.Idx) : (X i : EReal) ≠ ⊤ ∧ (X i : EReal) ≠ ⊥ :=
  real_of_abs_lt_inf (X i) (Host.reduce_andi_all _ _ hr hu ix0 e i)

/-- Under the precondition all four argument matrices are finite: the four-fold conjunction is split into its
    members, and each member gives the entries of its matrix by the lemma above, read at the index `(i, j)`. -/
theorem finite_of_pre (X : FVec Ideal Cert.Pre_finite_inputs.S10000x128 .f32) (A : FVec Ideal Cert.Pre_finite_inputs.S10000x10000 .f32)
    (W1 : FVec Ideal Cert.Pre_finite_inputs.S128x32 .f32) (W2 : FVec Ideal Cert.Pre_finite_inputs.S32x128 .f32)
    (h : Cert.Pre_finite_inputs.fn (F := Ideal) X A W1 W2 = (fun _ => 1#1)) :
    Finite2 (mat X) ∧ Finite2 (mat A) ∧ Finite2 (mat W1) ∧ Finite2 (mat W2) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i j => real_entries_of_all X _ _ _ h1 (ix2 i j), fun i j => real_entries_of_all A _ _ _ h2 (ix2 i j),
    fun i j => real_entries_of_all W1 _ _ _ h3 (ix2 i j), fun i j => real_entries_of_all W2 _ _ _ h4 (ix2 i j)⟩

end Cert.Gcn

end
-- ==== Proof.lean ====
/-
  A graph-convolution layer `adj · ((x · W₁) · W₂)` with 10000 nodes, 128 features in and out and a 32-wide bottleneck,
  computed by one fused kernel against the plain three-matmul reference.

  The kernel re-brackets the product. On a grid of 25 points it keeps the hidden features `x · W₁` (10000 × 32) in a
  scratch buffer, computed once at the first point, and at point `t` multiplies two consecutive 200-row blocks of the
  adjacency (both read from the one adjacency array) by the hidden features and then by `W₂`, writing rows
  `400 t … 400 t + 399` of the result: entry `(r, o)` is `∑ j, (∑ k, adj r k · hidden k j) · W₂ j o`. The reference
  expands first: entry `(r, o)` is `∑ k, adj r k · (∑ j, hidden k j · W₂ j o)`. At the ideal instance the roundings to
  bf16 are the identity and a matrix unit's product into a zero accumulator is the plain sum, so both are sums of
  products of the inputs' entries; they are equal where every entry is a real number — the precondition —, by
  distributivity and an exchange of the two finite sums (on the extended reals neither holds at the infinities).

  The three frames: the reference is three host operations (its run is read back operation by operation); the
  kernel program, at the word level and idealized, is one pipelined region whose frame is proved from the body's
  two runs (first point, later points) and the launch for windows that share an array. The idealization rewrote
  nothing, so that conjunct is trivial.
-/
import proofs.«106846_g61306363183711_cont_9to1_m_1256_15_alg».proof.Defs
import proofs.«106846_g61306363183711_cont_9to1_m_1256_15_alg».proof.Proof.Gen.Kernel
import proofs.«106846_g61306363183711_cont_9to1_m_1256_15_alg».proof.Proof.Gen.KernelIdeal
import proofs.«106846_g61306363183711_cont_9to1_m_1256_15_alg».proof.Proof.Gen.ReferenceIdeal
import proofs.«106846_g61306363183711_cont_9to1_m_1256_15_alg».proof.Proof.Gen.ReferenceIdeal.Run
import proofs.«106846_g61306363183711_cont_9to1_m_1256_15_alg».proof.Proof.Gen.ReferenceIdeal.Read
import proofs.«106846_g61306363183711_cont_9to1_m_1256_15_alg».proof.Proof.Gen.Pre_finite_inputs
import proofs.«106846_g61306363183711_cont_9to1_m_1256_15_alg».proof.Proof.Kernel.Frame
import proofs.«106846_g61306363183711_cont_9to1_m_1256_15_alg».proof.Proof.KernelIdeal.Frame
import proofs.«106846_g61306363183711_cont_9to1_m_1256_15_alg».proof.Proof.KernelIdeal.Final
import proofs.«106846_g61306363183711_cont_9to1_m_1256_15_alg».proof.Proof.Algebra
import proofs.«106846_g61306363183711_cont_9to1_m_1256_15_alg».proof.Proof.RefRead
import proofs.«106846_g61306363183711_cont_9to1_m_1256_15_alg».proof.Proof.Finite

noncomputable section

namespace Cert.Proof

open Idealize.ShloMosaic Idealize.ShloMosaic.TcCoe Idealize.SL.Sem

/-! ## The frames -/

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The values -/

/-- The idealized kernel program's run: the result array ends at the layer, aggregate-first, of the argument arrays,
    which end as they began. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))) :=
  (θ_run Cert.KernelIdeal.defs _ _).mono (fun _ h c =>
    ⟨(h c 5).trans (Cert.KernelIdeal.HandValue.final m c),
     (h c 0).trans (((Cert.KernelIdeal.Hand.dats m 0 c).arrAt_in 0 rfl _).trans (Cert.KernelIdeal.Hand.A_eq m c 0)),
     (h c 2).trans (((Cert.KernelIdeal.Hand.dats m 0 c).arrAt_in 2 rfl _).trans (Cert.KernelIdeal.Hand.A_eq m c 2)),
     (h c 1).trans (((Cert.KernelIdeal.Hand.dats m 0 c).arrAt_in 1 rfl _).trans (Cert.KernelIdeal.Hand.A_eq m c 1)),
     (h c 4).trans (((Cert.KernelIdeal.Hand.dats m 0 c).arrAt_in 4 rfl _).trans (Cert.KernelIdeal.Hand.A_eq m c 4))⟩)
    (Cert.KernelIdeal.Hand.run_main (F := Ideal) m ρ)

/-- Nothing was rewritten by the idealization. -/
theorem preserves : Cert.preserves_Kernel_KernelIdeal := trivial

/-- From memories agreeing on the arguments, the kernel's result (aggregate-first) and the reference's (expand-first)
    are one array: the inputs are finite, so the two bracketings of the triple product agree. -/
theorem algebraic : Cert.algebraic_KernelIdeal_ReferenceIdeal := by
  intro m ρ m' ρ' hpre hagree
  refine ⟨fun c => Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    kernel_value m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hW1, hW2⟩ := Cert.Gcn.finite_of_pre _ _ _ _ (hpre c)
  rw [Cert.ReferenceIdeal.Read.val_main_v2_eq, Cert.Gcn.Ref.ref_eq_layerRef, (hagree c).1, (hagree c).2.1, (hagree c).2.2.1, (hagree c).2.2.2]
  exact (Cert.Gcn.layer_eq_layerRef _ _ _ _ hX hA hW1 hW2).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
